-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S16384x512 : Shape := ⟨2, ![16384, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S8192x512 .f32) (main_arg1 : FVec F S8192x512 .f32) (main_arg2 : FVec F S16384x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Kernel.lean ====
abbrev S8192x512 : Shape := ⟨2, ![8192, 512]⟩
abbrev S16384x512 : Shape := ⟨2, ![16384, 512]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S16384x512, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  transposes_S1024x512_p1_0_S512x1024 : S1024x512.Transposes [1, 0] S512x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S8192x1_S_d0_1 : S8192x1.ReducesTo [0, 1] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S16384x512 : Shape := ⟨2, ![16384, 512]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S8192x16384 : Shape := ⟨2, ![8192, 16384]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S16384x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S16384x512, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x16384, .f32⟩
  | .hbm, ⟨37, _⟩ => ⟨S8192x16384, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S8192x16384_S8192_d1 : S8192x16384.ReducesTo [1] S8192
  reducesTo_S8192_S_d0 : S8192.ReducesTo [0] S_
  dot_S8192x512_S16384x512_S8192x16384_1_1_0_0_n_n_wf : DotDims.WF S8192x512 S16384x512 S8192x16384 [1] [1] [0] [0] [] []

variable [Facts₀]

def dot_S8192x512_S16384x512_S8192x16384_1_1_0_0_n_n : DotDims S8192x512 S16384x512 S8192x16384 where
  lhsContracting := [1]
  rhsContracting := [1]
  lhsNonContracting := [0]
  rhsNonContracting := [0]
  lhsBatch := []
  rhsBatch := []
  wf := dot_S8192x512_S16384x512_S8192x16384_1_1_0_0_n_n_wf

class Facts : Prop extends Facts₀ where

variable [Facts]
-- ==== Proof.KBlocks.lean ====
/-
  Where a window's block sits in its array.

  The grid has 8 × 16 points, the second coordinate moving fastest: point `t` works on row block `t / 16` of the
  anchors and of the positives (1024 rows each) and on tile `t % 16` of the negatives (1024 rows each), and writes
  row block `t / 16` of the result. So entry `(p, k)` of the anchors' block at point `t` is entry
  `((t / 16) · 1024 + p, k)` of the anchors' array, and likewise for the other windows.
-/
import proofs.«145945_j85521388798178_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The block index of each window at each point: row block `t / 16` for the anchors, the positives and the result,
    tile `t % 16` for the negatives; the second coordinate never moves. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = t.val / 16 ∧ win0_1.index t 1 = 0 :=
  (by decide +kernel : ∀ t : Fin grid0.N, win0_1.index t 0 = t.val / 16 ∧ win0_1.index t 1 = 0)
theorem index2 : ∀ t : Fin cfg0.N, win0_2.index t 0 = t.val % 16 ∧ win0_2.index t 1 = 0 :=
  (by decide +kernel : ∀ t : Fin grid0.N, win0_2.index t 0 = t.val % 16 ∧ win0_2.index t 1 = 0)
theorem index3 : ∀ t : Fin cfg0.N, win0_3.index t 0 = t.val / 16 ∧ win0_3.index t 1 = 0 :=
  (by decide +kernel : ∀ t : Fin grid0.N, win0_3.index t 0 = t.val / 16 ∧ win0_3.index t 1 = 0)

/-- The three argument arrays as the region finds them, and the three input blocks at a point, at their literal types. -/
abbrev xarr (c : Dev nD) : Vec F S8192x512 .f32 := V m c main_arg0
abbrev parr (c : Dev nD) : Vec F S8192x512 .f32 := V m c main_arg1
abbrev narr (c : Dev nD) : Vec F S16384x512 .f32 := V m c main_arg2
abbrev xblk (c : Dev nD) (t : Fin cfg0.N) : Vec F S1024x512 .f32 := iblk m c 0 t
abbrev pblk (c : Dev nD) (t : Fin cfg0.N) : Vec F S1024x512 .f32 := iblk m c 1 t
abbrev nblk (c : Dev nD) (t : Fin cfg0.N) : Vec F S1024x512 .f32 := iblk m c 2 t

/-- Row `p` of row block `t / 16`, as a row of an array of 8192 rows. -/
abbrev rowAt (t : Fin cfg0.N) (p : Fin 1024) : Fin 8192 :=
  ⟨t.val / 16 * 1024 + p.val, by have := t.isLt; have hN : cfg0.N = 128 := N_0; have := p.isLt; omega⟩

/-- Row `q` of tile `t % 16`, as a row of the array of 16384 negatives. -/
abbrev negAt (t : Fin cfg0.N) (q : Fin 1024) : Fin 16384 :=
  ⟨t.val % 16 * 1024 + q.val, by have := q.isLt; have := Nat.mod_lt t.val (by decide : 0 < 16); omega⟩

theorem xblk_apply (c : Dev nD) (t : Fin cfg0.N) (p : Fin 1024) (k : Fin 512) :
    xblk m c t (ix2 p k) = xarr m c (ix2 (rowAt t p) k) := by
  unfold xblk iblk
  rw [View.read_apply]
  show V m c main_arg0 _ = V m c main_arg0 _
  congr 1
  funext a
  apply Fin.ext
  match a with
  | ⟨0, _⟩ => show win0_0.index t 0 * 1024 + 1 * p.val = t.val / 16 * 1024 + p.val; rw [(index0 t).1]; omega
  | ⟨1, _⟩ => show win0_0.index t 1 * 512 + 1 * k.val = k.val; rw [(index0 t).2]; omega

theorem pblk_apply (c : Dev nD) (t : Fin cfg0.N) (p : Fin 1024) (k : Fin 512) :
    pblk m c t (ix2 p k) = parr m c (ix2 (rowAt t p) k) := by
  unfold pblk iblk
  rw [View.read_apply]
  show V m c main_arg1 _ = V m c main_arg1 _
  congr 1
  funext a
  apply Fin.ext
  match a with
  | ⟨0, _⟩ => show win0_1.index t 0 * 1024 + 1 * p.val = t.val / 16 * 1024 + p.val; rw [(index1 t).1]; omega
  | ⟨1, _⟩ => show win0_1.index t 1 * 512 + 1 * k.val = k.val; rw [(index1 t).2]; omega

theorem nblk_apply (c : Dev nD) (t : Fin cfg0.N) (q : Fin 1024) (k : Fin 512) :
    nblk m c t (ix2 q k) = narr m c (ix2 (negAt t q) k) := by
  unfold nblk iblk
  rw [View.read_apply]
  show V m c main_arg2 _ = V m c main_arg2 _
  congr 1
  funext a
  apply Fin.ext
  match a with
  | ⟨0, _⟩ => show win0_2.index t 0 * 1024 + 1 * q.val = t.val % 16 * 1024 + q.val; rw [(index2 t).1]; omega
  | ⟨1, _⟩ => show win0_2.index t 1 * 512 + 1 * k.val = k.val; rw [(index2 t).2]; omega

end Cert.KernelIdeal.Blocks

end
-- ==== Proof.KPieces.lean ====
import proofs.«145945_j85521388798178_1_alg».proof.Proof.Gen.KernelIdeal.Frame
import Idealize.ShloMosaic.Lib.Pipeline.Value
import Idealize.ShloMosaic.Lib.Tactic
set_option maxRecDepth 16384
noncomputable section
namespace Cert.KernelIdeal.Pieces
open Idealize.ShloMosaic Idealize.ShloMosaic.TcCoe Idealize.SL.Sem Cert.KernelIdeal Cert.KernelIdeal.Gen
variable {F : FTy → Type} [FloatOps F]

/-- The origin of a two-axis block, as the constant-zero offset. -/
theorem hz : (![0, 0] : Fin 2 → Nat) = fun _ => 0 := funext fun a => by fin_cases a <;> rfl

/-- First tile of a row block, running denominator: the reset stores the zero block, the later load of the same
    buffer reads that zero block back, and the accumulate store leaves the zero block plus this tile's row sums of
    exp(anchor · negative). -/
theorem sA0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 x1 x2 : Vec F S1024x512 .f32) : sout0_A_0 c i arg2 harg2 arg3 harg3 arg4 harg4 arg5 harg5 arg6 harg6 arg7 harg7 hc0 hc1 x0 x1 x2 = k0_pay4 x0 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread, View.ld_unit_zero (S := S1024x512) hz, View.ld_unit_zero (S := S1024x1) hz, shapeCast_self]

/-- First tile of a row block, positive-pair buffer: one covering store of the row sums of
    normalized anchor times normalized positive. -/
theorem sA1 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 x1 x2 : Vec F S1024x512 .f32) : sout0_A_1 c i arg2 harg2 arg3 harg3 arg4 harg4 arg5 harg5 arg6 harg6 arg7 harg7 hc0 hc1 x0 x1 x2 = k0_pay3 x0 x1 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_unit_zero hz]
  simp only [View.readAt_eq_ld, harg2.read_unread, harg3.read_unread, harg4.read_unread, harg6.read_unread, harg7.read_unread, View.ld_unit_zero (S := S1024x512) hz, View.ld_unit_zero (S := S1024x1) hz, shapeCast_self]

/-- Middle tile: one covering store of the running denominator plus this tile's row sums. -/
theorem sB0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 x1 x2 : Vec F S1024x512 .f32) (xs0 xs1 : Vec F S1024x1 .f32) : sout0_B_0 c i arg2 harg2 arg3 harg3 arg4 harg4 arg5 harg5 arg6 harg6 arg7 harg7 hc0 hc1 x0 x1 x2 xs0 xs1 = k0_pay4 x0 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S1024x512) hz, View.ld_unit_zero (S := S1024x1) hz, shapeCast_self]

/-- Last tile, running denominator: the same accumulate store as a middle tile. -/
theorem sC0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 x1 x2 : Vec F S1024x512 .f32) (xs0 xs1 : Vec F S1024x1 .f32) : sout0_C_0 c i arg2 harg2 arg3 harg3 arg4 harg4 arg5 harg5 arg6 harg6 arg7 harg7 hc0 hc1 x0 x1 x2 xs0 xs1 = k0_pay4 x0 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S1024x512) hz, View.ld_unit_zero (S := S1024x1) hz, shapeCast_self]

/-- Last tile, result block: the positive-pair sum (untouched at this tile) minus the log of the denominator
    read back AFTER this tile's accumulate store. -/
theorem oC3 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 x1 x2 : Vec F S1024x512 .f32) (xs0 xs1 : Vec F S1024x1 .f32) : out0_C_3 c i arg2 harg2 arg3 harg3 arg4 harg4 arg5 harg5 arg6 harg6 arg7 harg7 hc0 hc1 x0 x1 x2 xs0 xs1 = k0_pay5 xs1 (k0_pay4 x0 x2 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz, View.readCov_unit_zero (S := S1024x1) _ hz]
  simp only [View.readAt_eq_ld, harg2.read_unread, harg3.read_unread, harg4.read_unread, harg6.read_unread, harg7.read_unread, View.ld_unit_zero (S := S1024x512) hz, View.ld_unit_zero (S := S1024x1) hz, shapeCast_self]

end Cert.KernelIdeal.Pieces
end
-- ==== Proof.KCases.lean ====
/-
  What each grid point leaves in the two scratch buffers and in the result block, as the body's named payloads of the
  point's input blocks and of what the point before left.

  The first tile of a row block (`t % 16 = 0`) resets the running sum and adds its own terms, and writes the
  positive pair's sum; a later tile adds its own terms to what the tile before left and carries the second scratch;
  the last tile (`t % 16 = 15`) also writes the result block from the two scratch buffers.
-/
import proofs.«145945_j85521388798178_1_alg».proof.Proof.KBlocks
import proofs.«145945_j85521388798178_1_alg».proof.Proof.KPieces

set_option maxRecDepth 16384

noncomputable section

namespace Cert.KernelIdeal.Cases

open Idealize.ShloMosaic Idealize.ShloMosaic.TcCoe Idealize.SL.Sem
open Cert.KernelIdeal Cert.KernelIdeal.Gen Cert.KernelIdeal.Blocks

variable {F : FTy → Type} [FloatOps F]
variable (m : (ℓ : Loc nD τ sig) → Buf (Elt F) ℓ)

/-- What the point before `t` left in the running sum and in the positive pair's sum. -/
abbrev prevD (c : Dev nD) (t : Fin cfg0.N) : Vec F S1024x1 .f32 :=
  (outsAt0 m c (t.val - 1) (Nat.lt_of_le_of_lt (Nat.sub_le _ _) t.isLt)).2.1
abbrev prevS (c : Dev nD) (t : Fin cfg0.N) : Vec F S1024x1 .f32 :=
  (outsAt0 m c (t.val - 1) (Nat.lt_of_le_of_lt (Nat.sub_le _ _) t.isLt)).2.2

theorem denom_first (c : Dev nD) (t : Fin cfg0.N) (h0 : t.val % 16 = 0) (h1 : ¬t.val % 16 = 15) :
    (outsAt0 m c t.val t.isLt).2.1 = k0_pay4 (xblk m c t) (nblk m c t) (k0_pay2 (F := F)) := by
  rw [outsAt0_A m c t h0 h1]
  dsimp only
  exact Pieces.sA0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (pblk m c t) (nblk m c t)

theorem sim_first (c : Dev nD) (t : Fin cfg0.N) (h0 : t.val % 16 = 0) (h1 : ¬t.val % 16 = 15) :
    (outsAt0 m c t.val t.isLt).2.2 = k0_pay3 (xblk m c t) (pblk m c t) := by
  rw [outsAt0_A m c t h0 h1]
  dsimp only
  exact Pieces.sA1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (pblk m c t) (nblk m c t)

theorem denom_mid (c : Dev nD) (t : Fin cfg0.N) (h0 : ¬t.val % 16 = 0) (h1 : ¬t.val % 16 = 15) :
    (outsAt0 m c t.val t.isLt).2.1 = k0_pay4 (xblk m c t) (nblk m c t) (prevD m c t) := by
  rw [outsAt0_B m c t h0 h1]
  dsimp only
  exact Pieces.sB0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (pblk m c t) (nblk m c t) (outsAt0 m c (t.val - 1) (Nat.lt_of_le_of_lt (Nat.sub_le _ _) t.isLt)).2.1 (outsAt0 m c (t.val - 1) (Nat.lt_of_le_of_lt (Nat.sub_le _ _) t.isLt)).2.2

theorem sim_mid (c : Dev nD) (t : Fin cfg0.N) (h0 : ¬t.val % 16 = 0) (h1 : ¬t.val % 16 = 15) :
    (outsAt0 m c t.val t.isLt).2.2 = prevS m c t := by
  rw [outsAt0_B m c t h0 h1]
  dsimp only
  first | rfl | (unfold sout0_B_1; rfl)

theorem denom_last (c : Dev nD) (t : Fin cfg0.N) (h0 : ¬t.val % 16 = 0) (h1 : t.val % 16 = 15) :
    (outsAt0 m c t.val t.isLt).2.1 = k0_pay4 (xblk m c t) (nblk m c t) (prevD m c t) := by
  rw [outsAt0_C m c t h0 h1]
  dsimp only
  exact Pieces.sC0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (pblk m c t) (nblk m c t) (outsAt0 m c (t.val - 1) (Nat.lt_of_le_of_lt (Nat.sub_le _ _) t.isLt)).2.1 (outsAt0 m c (t.val - 1) (Nat.lt_of_le_of_lt (Nat.sub_le _ _) t.isLt)).2.2

theorem sim_last (c : Dev nD) (t : Fin cfg0.N) (h0 : ¬t.val % 16 = 0) (h1 : t.val % 16 = 15) :
    (outsAt0 m c t.val t.isLt).2.2 = prevS m c t := by
  rw [outsAt0_C m c t h0 h1]
  dsimp only
  first | rfl | (unfold sout0_C_1; rfl)

theorem out_last (c : Dev nD) (t : Fin cfg0.N) (h0 : ¬t.val % 16 = 0) (h1 : t.val % 16 = 15) :
    (outsAt0 m c t.val t.isLt).1 = k0_pay5 (prevS m c t) (k0_pay4 (xblk m c t) (nblk m c t) (prevD m c t)) := by
  rw [outsAt0_C m c t h0 h1]
  dsimp only
  exact Pieces.oC3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (pblk m c t) (nblk m c t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Cases

end
-- ==== Proof.Spec.lean ====
/-
  The mathematics both programs compute, stated once over plain functions.

  A row `a : Fin 512 → EReal` is scaled to unit length with a floor under its norm:
  `unit a d = a d / max (√(∑ₖ aₖ²)) ε`.  The cosine of two rows is the sum over the 512 features of the
  products of their unit forms.  For an anchor row `a`, its positive row `b` and the 16384 negative rows `N`,
  the row's loss is `cosine a b − log (∑_c exp (cosine a (N c)))`, and the loss is minus the sum of the
  8192 row losses, divided by 8192.

  The sum over the 16384 negatives can be taken sixteen tiles of 1024 at a time: `partialDenom a N n` is the
  sum of the first `n` terms, it starts at zero, each tile adds its own 1024 terms (`partialDenom_tile`), and
  after sixteen tiles it is the whole sum (`partialDenom_full`).  Addition of extended reals is commutative and
  associative with no side condition, so none of this asks the terms to be finite.
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

namespace Cert.Contrastive

open Idealize.ShloMosaic

/-- The floor under a row's norm: the float nearest to `10⁻¹²`, at its exact binary value. -/
def eps : EReal := Ideal.ofBits .f32 0x2B8CBCCC#32

/-- A row scaled to unit length, its norm floored at `eps`. -/
def unit (a : Fin 512 → EReal) (d : Fin 512) : EReal :=
  Ideal.div (a d) (max (Ideal.sqrt (∑ k : Fin 512, a k * a k)) eps)

/-- The cosine of two rows: the inner product of their unit forms. -/
def cosine (a b : Fin 512 → EReal) : EReal := ∑ d : Fin 512, unit a d * unit b d

/-- The `n`-th term of the sum over the negatives (zero past the last negative). -/
def term (a : Fin 512 → EReal) (N : Fin 16384 → Fin 512 → EReal) (n : ℕ) : EReal :=
  if h : n < 16384 then Ideal.exp (cosine a (N ⟨n, h⟩)) else 0

/-- The sum of the first `n` terms. -/
def partialDenom (a : Fin 512 → EReal) (N : Fin 16384 → Fin 512 → EReal) (n : ℕ) : EReal :=
  ∑ k ∈ Finset.range n, term a N k

theorem partialDenom_zero (a : Fin 512 → EReal) (N : Fin 16384 → Fin 512 → EReal) : partialDenom a N 0 = 0 :=
  Finset.sum_range_zero _

/-- One more tile of 1024 negatives adds exactly that tile's terms. -/
theorem partialDenom_tile (a : Fin 512 → EReal) (N : Fin 16384 → Fin 512 → EReal) (j : ℕ) (hj : j < 16) :
    partialDenom a N ((j + 1) * 1024)
      = partialDenom a N (j * 1024)
        + ∑ q : Fin 1024, Ideal.exp (cosine a (N ⟨j * 1024 + q.val, by have := q.isLt; omega⟩)) := by
  unfold partialDenom
  rw [show (j + 1) * 1024 = j * 1024 + 1024 by ring, Finset.sum_range_add]
  congr 1
  rw [← Fin.sum_univ_eq_sum_range (fun x => term a N (j * 1024 + x)) 1024]
  refine Finset.sum_congr rfl fun q _ => ?_
  have hq : j * 1024 + q.val < 16384 := by have := q.isLt; omega
  unfold term
  rw [dif_pos hq]

/-- Sixteen tiles are all the negatives. -/
theorem partialDenom_full (a : Fin 512 → EReal) (N : Fin 16384 → Fin 512 → EReal) :
    partialDenom a N 16384 = ∑ c : Fin 16384, Ideal.exp (cosine a (N c)) := by
  unfold partialDenom
  rw [← Fin.sum_univ_eq_sum_range (fun x => term a N x) 16384]
  refine Finset.sum_congr rfl fun c _ => ?_
  unfold term
  rw [dif_pos c.isLt]

/-- Row `r` of a matrix with 512 columns, as a function of the column. -/
abbrev rows {R : ℕ} (A : (⟨2, ![R, 512]⟩ : Shape).Idx → EReal) (r : Fin R) : Fin 512 → EReal :=
  fun k => A (ValueIdx.ix2 r k)

/-- One anchor row's loss against its positive row and all the negatives. -/
def rowLoss (a b : Fin 512 → EReal) (N : Fin 16384 → Fin 512 → EReal) : EReal :=
  cosine a b - Ideal.log (∑ c : Fin 16384, Ideal.exp (cosine a (N c)))

/-- The loss: minus the sum of the row losses, over the float `8192`. -/
def loss (X P : Fin 8192 → Fin 512 → EReal) (N : Fin 16384 → Fin 512 → EReal) : EReal :=
  Ideal.div (-(∑ r : Fin 8192, rowLoss (X r) (P r) N)) (Ideal.ofBits .f32 0x46000000#32)

end Cert.Contrastive

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KPay.lean ====
/-
  The kernel body's arithmetic read at an index, on the extended reals.

  The body works on blocks of 1024 rows by 512 features.  Each of its five stored values is read here at one
  row `p` (and, for the unit rows, one feature `d`):

  * a block's row scaled to unit length, the norm floored at `eps`, is `unit (rows x p) d`;
  * the zero column is `0` at every row;
  * the row-by-row inner product of two blocks' unit rows is `cosine (rows x p) (rows pos p)`;
  * one row of the 1024 x 1024 matrix of inner products of the anchor block's unit rows against a block of
    negatives' unit rows, exponentiated and summed along the row, added to what was accumulated before, is
    `acc p + ∑ q, exp (cosine (rows x p) (rows ng q))`;
  * the last column is `s p - log (dn p)`.

  A change of float format is the identity on extended reals, so the product through the narrower format is
  the plain sum of products; the second operand enters transposed, so entry `(p, q)` of the product pairs row
  `p` of the first block with row `q` of the second.
-/
import proofs.«145945_j85521388798178_1_alg».proof.Proof.Gen.KernelIdeal.Skeleton
import proofs.«145945_j85521388798178_1_alg».proof.Proof.Spec
import proofs.«145945_j85521388798178_1_alg».proof.Proof.LibContraction
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx Cert.KernelIdeal Cert.KernelIdeal.Gen Cert.Contrastive

/-! ## Layout steps at literal shapes -/

/-- A length-`a` vector viewed as an `a x 1` column reads, at `(p, 0)`, the vector at `p`. -/
theorem column_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A 1024 x 1 column spread over 512 features reads, at `(p, d)`, the column at `p`. -/
theorem spread_apply {α : Type} (v : S1024x1.Idx → α) (h : S1024x1.Broadcasts S1024x512) (p : Fin 1024) (d : Fin 512) :
    broadcastTo S1024x512 v h (ix2 p d) = v (ix2 p (0 : Fin 1)) :=
  broadcastTo_apply v h (ix2 p d) (ix2 p (0 : Fin 1)) fun ax =>
    match ax with
    | ⟨0, _⟩ => rfl
    | ⟨1, _⟩ => rfl

/-- A sum along the 512 features of a 1024 x 512 block reads, at row `p`, the sum of that row. -/
theorem rowSum512_apply (v : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ k : Fin 512, v (ix2 p k) := by
  refine (Ideal.multiReduction_add_single (φ := .f32) v _ h hφ hacc (ix1 p)).trans ?_
  refine Finset.sum_congr rfl fun k _ => ?_
  exact congrArg v (funext fun a => Fin.ext (by match a with | ⟨0, _⟩ => rfl | ⟨1, _⟩ => rfl))

/-- A sum along the columns of a 1024 x 1024 matrix reads, at row `p`, the sum of that row. -/
theorem rowSum1024_apply (v : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 1024, v (ix2 p q) := by
  refine (Ideal.multiReduction_add_single (φ := .f32) v _ h hφ hacc (ix1 p)).trans ?_
  refine Finset.sum_congr rfl fun k _ => ?_
  exact congrArg v (funext fun a => Fin.ext (by match a with | ⟨0, _⟩ => rfl | ⟨1, _⟩ => rfl))

/-! ## A block's unit rows -/

/-- Entry `(p, d)` of a block scaled row by row to unit length is `unit` of row `p` at `d`. -/
theorem pay1_apply (x : Vec Ideal S1024x512 .f32) (p : Fin 1024) (d : Fin 512) :
    k0_pay1 (F := Ideal) x (ix2 p d) = unit (rows x p) d := by
  unfold k0_pay1
  refine (divf_apply _ _ _).trans ?_
  unfold unit
  refine congrArg (Ideal.div (x (ix2 p d))) ?_
  refine (spread_apply _ _ p d).trans ?_
  refine (maximumf_apply _ _ _).trans ?_
  refine congrArg₂ max ?_ rfl
  show Ideal.sqrt (shapeCast S1024x1 _ _ (ix2 p (0 : Fin 1))) = _
  refine congrArg Ideal.sqrt ?_
  refine (column_apply _ _ p (0 : Fin 1)).trans ?_
  exact rowSum512_apply _ _ _ _ p

/-- The zero column is zero at every row. -/
theorem pay2_apply (p : Fin 1024) : k0_pay2 (F := Ideal) (ix2 p (0 : Fin 1)) = 0 := by
  unfold k0_pay2
  rw [shapeCast_self]
  exact Ideal.ofBits_zero_f32

/-! ## The inner products of two blocks' rows, row by row -/

/-- Row `p` of the column of row-by-row inner products of two blocks' unit rows is the cosine of the two rows. -/
theorem pay3_apply (x pos : Vec Ideal S1024x512 .f32) (p : Fin 1024) :
    k0_pay3 (F := Ideal) x pos (ix2 p (0 : Fin 1)) = cosine (rows x p) (rows pos p) := by
  unfold k0_pay3
  refine (congrFun (shapeCast_self _ _) _).trans ?_
  refine (column_apply _ _ p (0 : Fin 1)).trans ?_
  refine (rowSum512_apply _ _ _ _ p).trans ?_
  unfold cosine
  refine Finset.sum_congr rfl fun d _ => ?_
  refine (mulf_apply _ _ _).trans ?_
  exact congrArg₂ (· * ·) (pay1_apply x p d) (pay1_apply pos p d)

/-! ## The matrix of inner products of one block's rows against another's -/

/-- The product's dimension numbers: the first operand's features are summed against the second operand's rows. -/
abbrev dims : DotDims S1024x512 S512x1024 S1024x1024 := dot_S1024x512_S512x1024_S1024x1024_1_0_0_1_n_n

/-- The positions of the summed axis, as the numbers below 512. -/
abbrev pos512 : dims.contr.Idx ≃ Fin 512 := Cert.Lib.Contraction.contrFin dims (cl := 1) rfl 512 rfl

/-- The first operand is read at the result's row … -/
theorem lhs_ax0 (j : S1024x1024.Idx) (k : dims.contr.Idx) : (dims.lhsIdx j k 0).val = (j 0).val :=
  Cert.Lib.Contraction.lhs_free dims (nl := 0) rfl rfl j k (by decide)
/-- … and at the summed position; -/
theorem lhs_ax1 (j : S1024x1024.Idx) (i : Fin 512) : (dims.lhsIdx j (pos512.symm i) 1).val = i.val :=
  Cert.Lib.Contraction.lhs_contracted dims (cl := 1) rfl 512 rfl j i
/-- the second operand is read at the summed position … -/
theorem rhs_ax0 (j : S1024x1024.Idx) (i : Fin 512) : (dims.rhsIdx j (pos512.symm i) 0).val = i.val :=
  Cert.Lib.Contraction.rhs_contracted dims (cl := 1) (cr := 0) rfl rfl 512 rfl j i
/-- … and at the result's column. -/
theorem rhs_ax1 (j : S1024x1024.Idx) (k : dims.contr.Idx) : (dims.rhsIdx j k 1).val = (j 1).val :=
  Cert.Lib.Contraction.rhs_free dims (nl := 0) (nr := 1) rfl rfl rfl rfl j k (by decide)

/-- Entry `(p, q)` of the product into the zero matrix is the sum over the 512 features of the first operand's
    row `p` times the second operand's column `q`. -/
theorem product_apply (A : FVec Ideal S1024x512 .bf16) (B : FVec Ideal S512x1024 .bf16) (p q : Fin 1024) :
    matmul (F := Ideal) dims none A B (constant (F := Ideal) S1024x1024 .f32 0x00000000#32) (ix2 p q)
      = ∑ k : Fin 512, A (ix2 p k) * B (ix2 k q) := by
  refine (Ideal.matmul_constant_zero_apply dims none A B (ix2 p q)).trans ?_
  refine (Cert.Lib.Contraction.sum_contr dims (cl := 1) rfl 512 rfl _).trans ?_
  refine Finset.sum_congr rfl fun k _ => ?_
  have el : dims.lhsIdx (ix2 p q) (pos512.symm k) = ix2 p k := funext fun a => Fin.ext (by
    match a with
    | ⟨0, _⟩ => exact lhs_ax0 _ _
    | ⟨1, _⟩ => exact lhs_ax1 _ _)
  have er : dims.rhsIdx (ix2 p q) (pos512.symm k) = ix2 k q := funext fun a => Fin.ext (by
    match a with
    | ⟨0, _⟩ => exact rhs_ax0 _ _
    | ⟨1, _⟩ => exact rhs_ax1 _ _)
  exact congrArg₂ (fun a b => A a * B b) el er

/-- Entry `(p, q)` of the product of one block's unit rows with the transpose of another's is the cosine of row `p`
    of the first with row `q` of the second. -/
theorem logits_apply (x ng : Vec Ideal S1024x512 .f32) (h1 h2 : FTy.bits .bf16 < FTy.bits .f32)
    (ht : S1024x512.Transposes [1, 0] S512x1024) (p q : Fin 1024) :
    matmul (F := Ideal) dims none (truncf .bf16 (k0_pay1 (F := Ideal) x) h1)
        (transpose S512x1024 [1, 0] (truncf .bf16 (k0_pay1 (F := Ideal) ng) h2) ht)
        (constant (F := Ideal) S1024x1024 .f32 0x00000000#32) (ix2 p q)
      = cosine (rows x p) (rows ng q) := by
  refine (product_apply _ _ p q).trans ?_
  unfold cosine
  refine Finset.sum_congr rfl fun k _ => ?_
  refine congrArg₂ (· * ·) ?_ ?_
  · exact (truncf_apply (ψ := .bf16) (k0_pay1 (F := Ideal) x) h1 (ix2 p k)).trans (pay1_apply x p k)
  · refine (transpose_ix2_apply _ ht k q).trans ?_
    exact (truncf_apply (ψ := .bf16) (k0_pay1 (F := Ideal) ng) h2 (ix2 q k)).trans (pay1_apply ng q k)

/-- Row `p` of the running column: what was there, plus the sum along row `p` of the exponentials of the cosines of
    the anchor's row `p` with each of the 1024 negatives' rows. -/
theorem pay4_apply (x ng : Vec Ideal S1024x512 .f32) (acc : Vec Ideal S1024x1 .f32) (p : Fin 1024) :
    k0_pay4 (F := Ideal) x ng acc (ix2 p (0 : Fin 1))
      = acc (ix2 p (0 : Fin 1)) + ∑ q : Fin 1024, Ideal.exp (cosine (rows x p) (rows ng q)) := by
  unfold k0_pay4
  refine (congrFun (shapeCast_self _ _) _).trans ?_
  refine (addf_apply _ _ _).trans ?_
  refine congrArg (acc (ix2 p (0 : Fin 1)) + ·) ?_
  refine (column_apply _ _ p (0 : Fin 1)).trans ?_
  refine (rowSum1024_apply _ _ _ _ p).trans ?_
  refine Finset.sum_congr rfl fun q _ => ?_
  show Ideal.exp _ = Ideal.exp _
  refine congrArg Ideal.exp ?_
  exact logits_apply x ng _ _ _ p q

/-- The last column: what was accumulated for the positives minus the logarithm of the sum over the negatives. -/
theorem pay5_apply (s dn : Vec Ideal S1024x1 .f32) (p : Fin 1024) :
    k0_pay5 (F := Ideal) s dn (ix2 p (0 : Fin 1)) = s (ix2 p (0 : Fin 1)) - Ideal.log (dn (ix2 p (0 : Fin 1))) := rfl

end Cert.KernelIdeal.Pay

end
-- ==== Proof.KInv.lean ====
/-
  What the two scratch buffers and the result block hold after each grid point, in closed form.

  Point `t` works on row block `t / 16` against tile `t % 16` of the negatives. For row `p` of the block, write
  `a` for that anchor row, `b` for its positive row. After point `t`

    * the first scratch holds, at `p`, the sum of `exp (cosine a n)` over the negatives `n` of tiles `0 … t % 16`
      (`partialDenom a N ((t % 16 + 1) · 1024)`): the first tile of a row block resets it to zero and adds its own 1024
      terms, every later tile adds its own to what the tile before left;
    * the second scratch holds `cosine a b`: the first tile writes it and no later tile touches it;
    * at the last tile (`t % 16 = 15`) the result block holds `cosine a b − log (the sum over all 16384 negatives)`,
      the row's loss.

  The proof is an induction over the points; each step is one tile's contribution (`partialDenom_tile`).
-/
import proofs.«145945_j85521388798178_1_alg».proof.Proof.KCases
import proofs.«145945_j85521388798178_1_alg».proof.Proof.Spec
import proofs.«145945_j85521388798178_1_alg».proof.Proof.KPay
set_option maxRecDepth 16384

noncomputable section
namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.KernelIdeal.Cases Cert.Contrastive

variable (m : (ℓ : Loc nD τ sig) → Buf (Elt Ideal) ℓ)

/-- The three argument arrays, row by row. -/
abbrev X (c : Dev nD) : Fin 8192 → Fin 512 → EReal := rows (R := 8192) (xarr m c)
abbrev P (c : Dev nD) : Fin 8192 → Fin 512 → EReal := rows (R := 8192) (parr m c)
abbrev N (c : Dev nD) : Fin 16384 → Fin 512 → EReal := rows (R := 16384) (narr m c)

/-- A row of a block is the row of the array it was cut from. -/
theorem rows_xblk (c : Dev nD) (t : Fin cfg0.N) (p : Fin 1024) : rows (R := 1024) (xblk m c t) p = X m c (rowAt t p) :=
  funext fun k => xblk_apply m c t p k
theorem rows_pblk (c : Dev nD) (t : Fin cfg0.N) (p : Fin 1024) : rows (R := 1024) (pblk m c t) p = P m c (rowAt t p) :=
  funext fun k => pblk_apply m c t p k
theorem rows_nblk (c : Dev nD) (t : Fin cfg0.N) (q : Fin 1024) : rows (R := 1024) (nblk m c t) q = N m c (negAt t q) :=
  funext fun k => nblk_apply m c t q k

/-- ONE TILE'S STEP: if the accumulator holds the sum over the tiles before `t % 16`, the accumulate store leaves the
    sum over the tiles up to `t % 16`. -/
theorem acc_step (c : Dev nD) (t : Fin cfg0.N) (acc : Vec Ideal S1024x1 .f32) (p : Fin 1024)
    (hacc : acc (ix2 p (0 : Fin 1)) = partialDenom (X m c (rowAt t p)) (N m c) (t.val % 16 * 1024)) :
    k0_pay4 (F := Ideal) (xblk m c t) (nblk m c t) acc (ix2 p (0 : Fin 1))
      = partialDenom (X m c (rowAt t p)) (N m c) ((t.val % 16 + 1) * 1024) := by
  refine (Pay.pay4_apply (xblk m c t) (nblk m c t) acc p).trans ?_
  rw [hacc, partialDenom_tile _ _ (t.val % 16) (Nat.mod_lt _ (by decide)), rows_xblk]
  refine congrArg (_ + ·) (Finset.sum_congr rfl fun q _ => ?_)
  rw [rows_nblk]

/-- The positive pair's sum the first tile writes is the cosine of the anchor row and its positive row. -/
theorem sim_step (c : Dev nD) (t : Fin cfg0.N) (p : Fin 1024) :
    k0_pay3 (F := Ideal) (xblk m c t) (pblk m c t) (ix2 p (0 : Fin 1)) = cosine (X m c (rowAt t p)) (P m c (rowAt t p)) := by
  refine (Pay.pay3_apply (xblk m c t) (pblk m c t) p).trans ?_
  rw [rows_xblk, rows_pblk]

/-- What a row's two scratch entries are after the point at position `n`. -/
def Holds (c : Dev nD) (n : ℕ) (h : n < cfg0.N) (p : Fin 1024) : Prop :=
  (outsAt0 m c n h).2.1 (ix2 p (0 : Fin 1)) = partialDenom (X m c (rowAt ⟨n, h⟩ p)) (N m c) ((n % 16 + 1) * 1024)
    ∧ (outsAt0 m c n h).2.2 (ix2 p (0 : Fin 1)) = cosine (X m c (rowAt ⟨n, h⟩ p)) (P m c (rowAt ⟨n, h⟩ p))

/-- The first tile of a row block: the reset and this tile's terms; the positive pair's cosine is written. -/
theorem holds_first (c : Dev nD) (t : Fin cfg0.N) (h0 : t.val % 16 = 0) (p : Fin 1024) : Holds m c t.val t.isLt p := by
  have h1 : ¬t.val % 16 = 15 := by omega
  constructor
  · rw [denom_first m c t h0 h1]
    refine acc_step m c t _ p ?_
    rw [Pay.pay2_apply, show t.val % 16 * 1024 = 0 from by omega, partialDenom_zero]
  · rw [sim_first m c t h0 h1]
    exact sim_step m c t p

/-- What the point before `t` left, restated at `t`'s row block and tile (a later tile of the same row block). -/
theorem prev_of_holds (c : Dev nD) (t : Fin cfg0.N) (h0 : ¬t.val % 16 = 0) (p : Fin 1024)
    (ih : Holds m c (t.val - 1) (Nat.lt_of_le_of_lt (Nat.sub_le _ _) t.isLt) p) :
    prevD m c t (ix2 p (0 : Fin 1)) = partialDenom (X m c (rowAt t p)) (N m c) (t.val % 16 * 1024)
      ∧ prevS m c t (ix2 p (0 : Fin 1)) = cosine (X m c (rowAt t p)) (P m c (rowAt t p)) := by
  have hrow : rowAt ⟨t.val - 1, Nat.lt_of_le_of_lt (Nat.sub_le _ _) t.isLt⟩ p = rowAt t p :=
    Fin.ext (by show (t.val - 1) / 16 * 1024 + p.val = t.val / 16 * 1024 + p.val; omega)
  obtain ⟨ihD, ihS⟩ := ih
  constructor
  · refine ihD.trans ?_
    rw [hrow]
    congr 1
    omega
  · refine ihS.trans ?_
    rw [hrow]

/-- A later tile: this tile's terms on top of what the tile before left; the cosine is carried. -/
theorem holds_later (c : Dev nD) (t : Fin cfg0.N) (h0 : ¬t.val % 16 = 0) (p : Fin 1024)
    (ih : Holds m c (t.val - 1) (Nat.lt_of_le_of_lt (Nat.sub_le _ _) t.isLt) p) : Holds m c t.val t.isLt p := by
  obtain ⟨hD, hS⟩ := prev_of_holds m c t h0 p ih
  by_cases h1 : t.val % 16 = 15
  · constructor
    · rw [denom_last m c t h0 h1]
      exact acc_step m c t _ p hD
    · rw [sim_last m c t h0 h1]
      exact hS
  · constructor
    · rw [denom_mid m c t h0 h1]
      exact acc_step m c t _ p hD
    · rw [sim_mid m c t h0 h1]
      exact hS

/-- After every point, row by row. -/
theorem holds (c : Dev nD) (p : Fin 1024) : ∀ (n : ℕ) (h : n < cfg0.N), Holds m c n h p := by
  intro n
  induction n with
  | zero => intro h; exact holds_first m c ⟨0, h⟩ rfl p
  | succ k ih =>
    intro h
    by_cases h0 : (k + 1) % 16 = 0
    · exact holds_first m c ⟨k + 1, h⟩ h0 p
    · exact holds_later m c ⟨k + 1, h⟩ h0 p (ih (Nat.lt_of_succ_lt h))

/-- AT THE LAST TILE of a row block the result block holds each row's loss. -/
theorem out_last_apply (c : Dev nD) (t : Fin cfg0.N) (h15 : t.val % 16 = 15) (p : Fin 1024) :
    (outsAt0 m c t.val t.isLt).1 (ix2 p (0 : Fin 1))
      = rowLoss (X m c (rowAt t p)) (P m c (rowAt t p)) (N m c) := by
  have h0 : ¬t.val % 16 = 0 := by omega
  obtain ⟨hD, hS⟩ := prev_of_holds m c t h0 p (holds m c p (t.val - 1) _)
  rw [out_last m c t h0 h15]
  refine (Pay.pay5_apply (prevS m c t) (k0_pay4 (F := Ideal) (xblk m c t) (nblk m c t) (prevD m c t)) p).trans ?_
  rw [hS, acc_step m c t _ p hD, show (t.val % 16 + 1) * 1024 = 16384 from by omega, partialDenom_full]
  rfl

end Cert.KernelIdeal.Inv

end
-- ==== Proof.KFinal.lean ====
/-
  The kernel's result, read off its run.

  The result window writes a block back only at the last tile of each row block (`t % 16 = 15`), and there the block
  holds each row's loss; the eight written blocks tile the 8192 × 1 result array, so after the region that array holds
  row `r`'s loss at `(r, 0)`. The three host operations after the region sum that array, negate the sum and divide by
  the float `8192`: the loss.
-/
import proofs.«145945_j85521388798178_1_alg».proof.Proof.KInv
import Idealize.ShloMosaic.Lib.Pipeline.Value
import Idealize.ShloMosaic.Lib.StableHlo.Run
import Idealize.ShloMosaic.PureOps.Ideal.Laws

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Inv Cert.Contrastive

variable (m : (ℓ : Loc nD τ sig) → Buf (Elt Ideal) ℓ) (ρ : Dev nD → PrngReg)

/-- The result array after the region: row `r`'s loss at `(r, 0)`. -/
abbrev G (c : Dev nD) : Buf (Elt Ideal) ((c : Thread nD τ).loc main_v0) :=
  fun i => rowLoss (X m c ⟨(i 0).val, (i 0).isLt⟩) (P m c ⟨(i 0).val, (i 0).isLt⟩) (N m c)

/-- The block the last tile of a row block leaves, entry by entry, is that block of `G`. -/
theorem block_last (c : Dev nD) (t : Fin cfg0.N) (h15 : t.val % 16 = 15) (y : S1024x1.Idx) :
    (outsAt0 m c t.val t.isLt).1 y = G m c (((cfg0.win 3).blk t).view.emb y) := by
  obtain ⟨p, z, rfl⟩ : ∃ (p : Fin 1024) (z : Fin 1), y = ix2 p z := ⟨y 0, y 1, eq_ix2 y⟩
  obtain rfl : z = 0 := Subsingleton.elim _ _
  rw [out_last_apply m c t h15 p]
  have he : (⟨((((cfg0.win 3).blk t).view.emb (ix2 p (0 : Fin 1))) 0).val, ((((cfg0.win 3).blk t).view.emb (ix2 p (0 : Fin 1))) 0).isLt⟩ : Fin 8192)
      = rowAt t p :=
    Fin.ext (by show win0_3.index t 0 * 1024 + 1 * p.val = t.val / 16 * 1024 + p.val; rw [(index3 t).1]; omega)
  show _ = rowLoss (X m c ⟨_, _⟩) (P m c ⟨_, _⟩) (N m c)
  rw [he]

/-- What a writing point writes back is its block of `G`. -/
theorem flushed_eq (c : Dev nD) (t : Fin cfg0.N) (hf : (cfg0.win 3).flush t = true) :
    (dats m 0 c).flushed 3 t = ((cfg0.win 3).blk t).view.read (Elt Ideal) (G m c) := by
  have h15 : t.val % 16 = 15 := (flush0_3 t).mp hf
  show (cfg0.win 3).cut (grid0.coords t) ((dats m 0 c).after 3 t) = _
  rw [after0_3]
  funext j
  exact block_last m c t h15 j

/-- An index of the result array is in point `t`'s block iff each coordinate is in the block's range on its axis. -/
theorem mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0).slice (win0_3.rect t)).set ↔ _
  rw [View.set_slice_whole, Rect.mem_set_unit]
  exact Iff.rfl

/-- Every row of the result array is in the block the last tile of its row block writes. -/
theorem cover (i : S8192x1.Idx) : ∃ t : Fin cfg0.N, (cfg0.win 3).flush t = true ∧ i ∈ ((cfg0.win 3).blk t).view.set := by
  have hN : cfg0.N = 128 := N_0
  have hi0 : (i 0).val < 8192 := (i 0).isLt
  have hi1 : (i 1).val < 1 := (i 1).isLt
  let t : Fin cfg0.N := ⟨(i 0).val / 1024 * 16 + 15, by omega⟩
  have ht : t.val = (i 0).val / 1024 * 16 + 15 := rfl
  refine ⟨t, (flush0_3 t).mpr (by omega), ?_⟩
  rw [mem_blk]
  intro a
  match a with
  | ⟨0, _⟩ => show win0_3.index t 0 * 1024 ≤ (i 0).val ∧ (i 0).val < win0_3.index t 0 * 1024 + 1024; rw [(index3 t).1]; omega
  | ⟨1, _⟩ => show win0_3.index t 1 * 1 ≤ (i 1).val ∧ (i 1).val < win0_3.index t 1 * 1 + 1; rw [(index3 t).2]; omega

/-- So the result array ends holding every row's loss. -/
theorem final (c : Dev nD) : (dats m 0 c).arrAt 3 cfg0.N = G m c :=
  (dats m 0 c).arrAt_eq_of_cover 3 (G m c) (flushed_eq m c) cover

/-- The host operations after the region, read at the ideal instance: the sum over the 8192 × 1 array is the sum of
    its 8192 rows; negated and divided by the float `8192`. -/
theorem tail_value (A : Vec Ideal S8192x1 .f32) (f : Fin 8192 → EReal) (hA : ∀ r : Fin 8192, A (ix2 r (0 : Fin 1)) = f r) :
    Host.divf (F := Ideal) (Host.negf (F := Ideal) (Host.reduceAdd (F := Ideal) A (constant (F := Ideal) S_ .f32 0x00000000#32) reducesTo_S8192x1_S_d0_1 h_S_))
        (constant (F := Ideal) S_ .f32 0x46000000#32)
      = fun _ => Ideal.div (-(∑ r : Fin 8192, f r)) (Ideal.ofBits .f32 0x46000000#32) := by
  funext i
  have hsum : Host.reduceAdd (F := Ideal) A (constant (F := Ideal) S_ .f32 0x00000000#32) reducesTo_S8192x1_S_d0_1 h_S_ i = ∑ r : Fin 8192, f r := by
    simp only [Host.reduceAdd, Ideal.hostReduceAdd_def]
    rw [Ideal.hostReduceAdd_total reducesTo_S8192x1_S_d0_1 (fun b => b.elim0)]
    rw [sum_idx2]
    simp only [constant_apply, Ideal.ofBits_zero_f32, zero_add, Fin.sum_univ_one]
    exact Finset.sum_congr rfl fun r _ => hA r
  show FloatOps.hostDivf (FloatOps.hostNegf (Host.reduceAdd (F := Ideal) A (constant (F := Ideal) S_ .f32 0x00000000#32) reducesTo_S8192x1_S_d0_1 h_S_ i)) (Ideal.ofBits .f32 0x46000000#32) = _
  rw [hsum]
  rfl

/-- The tail's result on the region's result array: the loss. -/
theorem tail_eq (c : Dev nD) :
    Pipeline.afterTail₀ cfgs (dats m) 0 (V0 m) [hostOps1] c main_v3
      = fun _ => loss (X m c) (P m c) (N m c) := by
  unfold Pipeline.afterTail₀
  show StableHlo.after hostOps1 _ (Proc.devRef .tc main_v3) = _
  after_results
  rw [(Pipeline.withArrays_arr spec0 launch0.win.arr_inj c _ _ 3).trans (final m c)]
  exact tail_value (G m c) (fun r => rowLoss (X m c r) (P m c r) (N m c)) (fun r => rfl)

/-- THE KERNEL'S RUN, READ: every weakly fair execution ends with the result buffer at the loss of the three argument
    arrays' rows, the arguments unchanged. -/
theorem run : θ_run defs (onTc (τ := τ) (main (F := Ideal))) ⟨m, fun _ => 0, ρ⟩ fun r => ∀ c : Dev nD,
      r.2.mem ((c.tc : Thread nD τ).loc main_v3) = (fun _ => loss (X m c) (P m c) (N m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.RefLoss.lean ====
/-
  The reference program's result, read one stage at a time at the ideal values, is the contrastive loss.

  Each operand's rows are scaled to unit length: the sum of a row's squares, its square root floored at the
  small constant, and the row's entries divided by that floor.  The row-by-row product summed over the 512
  features is the cosine of an anchor row with its positive row; the contraction of the anchors with the
  negatives over the features is the cosine of an anchor row with each negative row.  Exponentials of those,
  summed over the 16384 negatives, then the logarithm, subtracted from the positive cosine, give a row's loss;
  the sum of the 8192 row losses, negated and divided by 8192, is the loss.
-/
import proofs.«145945_j85521388798178_1_alg».proof.Proof.Gen.ReferenceIdeal.Read
import proofs.«145945_j85521388798178_1_alg».proof.Proof.Spec
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.Contrastive

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-! ## The three operands' rows scaled to unit length -/

/-- The sum of the squares of row `r` of the anchors. -/
theorem sq_sum_x0 (x0 : (⟨S8192x512, .f32⟩ : BufTy).Contents (Elt Ideal)) (r : Fin 8192) :
    val_main_v1 (F := Ideal) x0 (ix1 r) = ∑ k : Fin 512, x0 (ix2 r k) * x0 (ix2 r k) := by
  rw [val_main_v1_apply, val_main_cst_apply]
  simp only [Ideal.ofBits_def, Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  rw [val_main_v0_apply, e]
  rfl

/-- Entry `(r, d)` of the scaled anchors is the unit form of row `r` at `d`. -/
theorem unit_x0 (x0 : (⟨S8192x512, .f32⟩ : BufTy).Contents (Elt Ideal)) (r : Fin 8192) (d : Fin 512) :
    val_main_v7 (F := Ideal) x0 (ix2 r d) = unit (rows x0 r) d := by
  have e : idx_main_v2 (idx_main_v6 (ix2 r d)) = ix1 r :=
    funext fun a => Fin.ext (by match a with | ⟨0, _⟩ => rfl)
  rw [val_main_v7_apply, val_main_v6_apply, val_main_v5_apply, val_main_v3_apply, val_main_v2_apply,
    val_main_v4_apply, val_main_cst_0_apply, e, sq_sum_x0]
  rfl

/-- The sum of the squares of row `r` of the positives. -/
theorem sq_sum_x1 (x1 : (⟨S8192x512, .f32⟩ : BufTy).Contents (Elt Ideal)) (r : Fin 8192) :
    val_main_v9 (F := Ideal) x1 (ix1 r) = ∑ k : Fin 512, x1 (ix2 r k) * x1 (ix2 r k) := by
  rw [val_main_v9_apply, val_main_cst_1_apply]
  simp only [Ideal.ofBits_def, Ideal.ofBits_zero_f32, zero_add]
  refine Finset.sum_congr rfl fun k _ => ?_
  have e : idx_main_v9 (ix1 r) k = ix2 r k :=
    funext fun a => Fin.ext (by match a with | ⟨0, _⟩ => rfl | ⟨1, _⟩ => rfl)
  rw [val_main_v8_apply, e]
  rfl

/-- Entry `(r, d)` of the scaled positives is the unit form of row `r` at `d`. -/
theorem unit_x1 (x1 : (⟨S8192x512, .f32⟩ : BufTy).Contents (Elt Ideal)) (r : Fin 8192) (d : Fin 512) :
    val_main_v15 (F := Ideal) x1 (ix2 r d) = unit (rows x1 r) d := by
  have e : idx_main_v10 (idx_main_v14 (ix2 r d)) = ix1 r :=
    funext fun a => Fin.ext (by match a with | ⟨0, _⟩ => rfl)
  rw [val_main_v15_apply, val_main_v14_apply, val_main_v13_apply, val_main_v11_apply, val_main_v10_apply,
    val_main_v12_apply, val_main_cst_2_apply, e, sq_sum_x1]
  rfl

/-- The sum of the squares of row `c` of the negatives. -/
theorem sq_sum_x2 (x2 : (⟨S16384x512, .f32⟩ : BufTy).Contents (Elt Ideal)) (c : Fin 16384) :
    val_main_v17 (F := Ideal) x2 (ix1 c) = ∑ k : Fin 512, x2 (ix2 c k) * x2 (ix2 c k) := by
  rw [val_main_v17_apply, val_main_cst_3_apply]
  simp only [Ideal.ofBits_def, Ideal.ofBits_zero_f32, zero_add]
  refine Finset.sum_congr rfl fun k _ => ?_
  have e : idx_main_v17 (ix1 c) k = ix2 c k :=
    funext fun a => Fin.ext (by match a with | ⟨0, _⟩ => rfl | ⟨1, _⟩ => rfl)
  rw [val_main_v16_apply, e]
  rfl

/-- Entry `(c, d)` of the scaled negatives is the unit form of row `c` at `d`. -/
theorem unit_x2 (x2 : (⟨S16384x512, .f32⟩ : BufTy).Contents (Elt Ideal)) (c : Fin 16384) (d : Fin 512) :
    val_main_v23 (F := Ideal) x2 (ix2 c d) = unit (rows x2 c) d := by
  have e : idx_main_v18 (idx_main_v22 (ix2 c d)) = ix1 c :=
    funext fun a => Fin.ext (by match a with | ⟨0, _⟩ => rfl)
  rw [val_main_v23_apply, val_main_v22_apply, val_main_v21_apply, val_main_v19_apply, val_main_v18_apply,
    val_main_v20_apply, val_main_cst_4_apply, e, sq_sum_x2]
  rfl

/-! ## The cosines -/

/-- The row sum of the product of the scaled anchors and positives is the cosine of the two rows. -/
theorem sim_eq (x0 x1 : (⟨S8192x512, .f32⟩ : BufTy).Contents (Elt Ideal)) (r : Fin 8192) :
    val_main_v25 (F := Ideal) x0 x1 (ix1 r) = cosine (rows x0 r) (rows x1 r) := by
  rw [val_main_v25_apply, val_main_cst_5_apply]
  simp only [Ideal.ofBits_def, Ideal.ofBits_zero_f32, zero_add]
  unfold cosine
  refine Finset.sum_congr rfl fun k _ => ?_
  have e : idx_main_v25 (ix1 r) k = ix2 r k :=
    funext fun a => Fin.ext (by match a with | ⟨0, _⟩ => rfl | ⟨1, _⟩ => rfl)
  rw [val_main_v24_apply, e, unit_x0, unit_x1]
  rfl

/-- Entry `(r, c)` of the contraction of the scaled anchors with the scaled negatives over the features is the
    cosine of anchor row `r` with negative row `c`. -/
theorem logit_eq (x0 : (⟨S8192x512, .f32⟩ : BufTy).Contents (Elt Ideal))
    (x2 : (⟨S16384x512, .f32⟩ : BufTy).Contents (Elt Ideal)) (r : Fin 8192) (c : Fin 16384) :
    val_main_v26 (F := Ideal) x0 x2 (ix2 r c) = cosine (rows x0 r) (rows x2 c) := by
  rw [val_main_v26_apply]
  unfold cosine
  refine Finset.sum_congr rfl fun k _ => ?_
  have el : lidx_main_v26 (ix2 r c) k = ix2 r k :=
    funext fun a => Fin.ext (by match a with | ⟨0, _⟩ => rfl | ⟨1, _⟩ => rfl)
  have er : ridx_main_v26 (ix2 r c) k = ix2 c k :=
    funext fun a => Fin.ext (by match a with | ⟨0, _⟩ => rfl | ⟨1, _⟩ => rfl)
  rw [el, er, unit_x0, unit_x2]

/-! ## A row's loss, and the loss -/

/-- The row sum of the exponentials of the cosines with every negative. -/
theorem denom_eq (x0 : (⟨S8192x512, .f32⟩ : BufTy).Contents (Elt Ideal))
    (x2 : (⟨S16384x512, .f32⟩ : BufTy).Contents (Elt Ideal)) (r : Fin 8192) :
    val_main_v28 (F := Ideal) x0 x2 (ix1 r)
      = ∑ c : Fin 16384, Ideal.exp (cosine (rows x0 r) (rows x2 c)) := by
  rw [val_main_v28_apply, val_main_cst_6_apply]
  simp only [Ideal.ofBits_def, Ideal.ofBits_zero_f32, zero_add]
  refine Finset.sum_congr rfl fun c _ => ?_
  have e : idx_main_v28 (ix1 r) c = ix2 r c :=
    funext fun a => Fin.ext (by match a with | ⟨0, _⟩ => rfl | ⟨1, _⟩ => rfl)
  rw [val_main_v27_apply, e, logit_eq]
  rfl

/-- The positive cosine minus the logarithm of that sum is the row's loss. -/
theorem rowLoss_eq (x0 x1 : (⟨S8192x512, .f32⟩ : BufTy).Contents (Elt Ideal))
    (x2 : (⟨S16384x512, .f32⟩ : BufTy).Contents (Elt Ideal)) (r : Fin 8192) :
    val_main_v30 (F := Ideal) x0 x1 x2 (ix1 r) = rowLoss (rows x0 r) (rows x1 r) (rows x2) := by
  rw [val_main_v30_apply, val_main_v29_apply, sim_eq, denom_eq]
  unfold rowLoss
  simp only [Ideal.subf_def, Ideal.hostUnary_log_def]

/-- The sum over every row index is the sum of the 8192 row losses. -/
theorem total_eq (x0 x1 : (⟨S8192x512, .f32⟩ : BufTy).Contents (Elt Ideal))
    (x2 : (⟨S16384x512, .f32⟩ : BufTy).Contents (Elt Ideal)) (i : S_.Idx) :
    val_main_v31 (F := Ideal) x0 x1 x2 i = ∑ r : Fin 8192, rowLoss (rows x0 r) (rows x1 r) (rows x2) := by
  rw [val_main_v31_apply, val_main_cst_7_apply]
  simp only [Ideal.ofBits_def, Ideal.ofBits_zero_f32, zero_add]
  refine (Fintype.sum_equiv (idxEquiv1 (n := 8192)) _
    (fun r : Fin 8192 => val_main_v30 (F := Ideal) x0 x1 x2 (ix1 r)) (fun j => ?_)).trans ?_
  · exact congrArg (val_main_v30 (F := Ideal) x0 x1 x2) (eq_ix1 j)
  · exact Finset.sum_congr rfl fun r _ => rowLoss_eq x0 x1 x2 r

/-- The reference's result is the loss of the three operands' rows. -/
theorem ref_loss (x0 x1 : (⟨S8192x512, .f32⟩ : BufTy).Contents (Elt Ideal)) (x2 : (⟨S16384x512, .f32⟩ : BufTy).Contents (Elt Ideal)) :
    val_main_v33 (F := Ideal) x0 x1 x2 = fun _ => loss (rows x0) (rows x1) (rows x2) := by
  funext i
  rw [val_main_v33_apply, val_main_v32_apply, total_eq, val_main_cst_8_apply]
  rfl

end Cert.ReferenceIdeal.RefValue

end
-- ==== Proof.lean ====
/-
  The contrastive loss of 8192 anchor rows against their positive rows and 16384 negative rows, computed two ways.

  Both programs scale every row of the three arrays to unit length (its norm floored at the float nearest `10⁻¹²`),
  take for each anchor row `a` the cosine with its positive row `b` and the sum over all negatives `n` of
  `exp (cosine a n)`, and return minus the sum over the rows of `cosine a b − log (that sum)`, divided by 8192.
  The reference does it on whole arrays. The kernel walks an 8 × 16 grid: a row block of 1024 anchors against one tile of
  1024 negatives at a time, keeping the running sum over the negatives and the positive pair's cosine in two scratch
  buffers, and writes a row block's losses at its last tile; the final sum, negation and division are the same host
  operations on both sides. Over the extended reals a change of float format is the identity, the kernel's matrix
  product into a zero accumulator is the reference's contraction, and the sixteen partial sums add up to the whole sum
  by associativity and commutativity alone, so the two results are one number: `Cert.Contrastive.loss` of the three
  arrays' rows. No finiteness of the inputs is used.

  The frames of the two kernel programs are the generated ones; the reference's frame is its run with the result dropped;
  the idealization rewrote nothing, so `preserves` is trivial.
-/
import proofs.«145945_j85521388798178_1_alg».proof.Defs
import proofs.«145945_j85521388798178_1_alg».proof.Proof.Gen.Kernel
import proofs.«145945_j85521388798178_1_alg».proof.Proof.Gen.Kernel.Skeleton
import proofs.«145945_j85521388798178_1_alg».proof.Proof.Gen.Kernel.Launch
import proofs.«145945_j85521388798178_1_alg».proof.Proof.Gen.Kernel.Points
import proofs.«145945_j85521388798178_1_alg».proof.Proof.Gen.Kernel.Frame
import proofs.«145945_j85521388798178_1_alg».proof.Proof.Gen.KernelIdeal
import proofs.«145945_j85521388798178_1_alg».proof.Proof.Gen.KernelIdeal.Skeleton
import proofs.«145945_j85521388798178_1_alg».proof.Proof.Gen.KernelIdeal.Launch
import proofs.«145945_j85521388798178_1_alg».proof.Proof.Gen.KernelIdeal.Points
import proofs.«145945_j85521388798178_1_alg».proof.Proof.Gen.KernelIdeal.Frame
import proofs.«145945_j85521388798178_1_alg».proof.Proof.Gen.ReferenceIdeal
import proofs.«145945_j85521388798178_1_alg».proof.Proof.Gen.ReferenceIdeal.Run
import proofs.«145945_j85521388798178_1_alg».proof.Proof.Gen.ReferenceIdeal.Read
import proofs.«145945_j85521388798178_1_alg».proof.Proof.Gen.Pre_finite_inputs
import Idealize.ShloMosaic.Adequacy
import Idealize.ShloMosaic.Init

import proofs.«145945_j85521388798178_1_alg».proof.Proof.KFinal
import proofs.«145945_j85521388798178_1_alg».proof.Proof.RefLoss

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the loss of the same three arrays' rows: the kernel's by its run read through the grid, the
    reference's by its operations read one at a time, the arguments agreeing. -/
theorem algebraic : Cert.algebraic_KernelIdeal_ReferenceIdeal := by
  intro m ρ m' ρ' _ hagree
  refine ⟨fun c => fun _ => Cert.Contrastive.loss (Cert.KernelIdeal.Inv.X m c) (Cert.KernelIdeal.Inv.P m c) (Cert.KernelIdeal.Inv.N m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_loss, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
